-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 93
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x1, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S100000, .f32⟩
  | .hbm, ⟨85, _⟩ => ⟨S100000x1, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x1, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x64, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x1, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000, .f32⟩
  | 114 => ⟨S100000x1, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x64, .f32⟩
  | _ => ⟨S100000x256, .f32⟩

abbrev hbmTy0_1 (i : Nat) : BufTy := match i % 128 with
  | 0 => ⟨S100000x64, .f32⟩
  | 1 => ⟨S100000x64, .f32⟩
  | 2 => ⟨S_, .f32⟩
  | 3 => ⟨S100000, .f32⟩
  | 4 => ⟨S100000x1, .f32⟩
  | 5 => ⟨S100000x1, .f32⟩
  | 6 => ⟨S100000x64, .f32⟩
  | 7 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Region0.lean ====
/-
  The first matrix product (x · w, 256 contracted columns, 128 result columns), read off the pipeline: the 20 row blocks of 5000 rows tile the [100000, 128] result, block t
  holding rows 5000 t … 5000 t + 4999, and each entry (r, q) of a block is the sum over k of x[r, k] · w[k, q] of that
  block's rows of x and of the whole of w (the kernel rounds both to bf16 first, which at the ideal instance is the
  identity, and accumulates into zero). So the array the region leaves is the whole product x · w, index by index.
-/
import proofs.«148459_j62423054680283_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

/-- Row `i 0` of the left factor at column `k`. -/
abbrev lix0 (i : S100000x128.Idx) (k : Fin 256) : S100000x256.Idx := fun a => match a with
  | ⟨0, _⟩ => ⟨(i 0).val, (i 0).isLt⟩
  | ⟨1, _⟩ => ⟨k.val, k.isLt⟩
/-- Row `k` of the right factor at column `i 1`. -/
abbrev rix0 (i : S100000x128.Idx) (k : Fin 256) : S256x128.Idx := fun a => match a with
  | ⟨0, _⟩ => ⟨k.val, k.isLt⟩
  | ⟨1, _⟩ => ⟨(i 1).val, (i 1).isLt⟩

/-- The whole product, index by index, on the extended reals. -/
def mm0 (x : S100000x256.Idx → EReal) (w : S256x128.Idx → EReal) : S100000x128.Idx → EReal :=
  fun i => ∑ k : Fin 256, x (lix0 i k) * w (rix0 i k)

/-- The same two index maps inside one block. -/
abbrev blix0 (j : S5000x128.Idx) (k : Fin 256) : S5000x256.Idx := fun a => match a with
  | ⟨0, _⟩ => ⟨(j 0).val, (j 0).isLt⟩
  | ⟨1, _⟩ => ⟨k.val, k.isLt⟩
abbrev brix0 (j : S5000x128.Idx) (k : Fin 256) : S256x128.Idx := fun a => match a with
  | ⟨0, _⟩ => ⟨k.val, k.isLt⟩
  | ⟨1, _⟩ => ⟨(j 1).val, (j 1).isLt⟩

theorem zeroOffsets0 : (![0, 0] : Fin 2 → Nat) = fun _ => 0 := funext fun a => by fin_cases a <;> rfl

/-! The block product's dimension numbers: axis 0 of the left factor is the result's row, axis 1 the contracted one;
    axis 0 of the right factor the contracted one, axis 1 the result's column. -/
theorem lhs_blk0_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_blk0_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_blk0_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_blk0_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- One entry of the block the body stores: the sum over the contracted axis of the products of the two loaded blocks. -/
theorem blockProduct0_apply (x0 : Vec Ideal S5000x256 .f32) (x1 : Vec Ideal S256x128 .f32) (j : S5000x128.Idx) :
    k0_pay1 (F := Ideal) x0 x1 j = ∑ k : Fin 256, (x0 (blix0 j k) : EReal) * (x1 (brix0 j k) : EReal) := by
  unfold k0_pay1
  simp only [matmul, shapeCast_self]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = blix0 j k := funext fun a => Fin.ext (by
    match a with
    | ⟨0, _⟩ => exact lhs_blk0_0 _ _
    | ⟨1, _⟩ => exact (lhs_blk0_1 _ _).trans hk)
  have er : dot_S5000x256_S256x128_S5000x128_1_0_0_1_n_n.rhsIdx j ((ValueIdx.contrEquiv1 dot_S5000x256_S256x128_S5000x128_1_0_0_1_n_n 256 rfl rfl).symm k) = brix0 j k := funext fun a => Fin.ext (by
    match a with
    | ⟨0, _⟩ => exact (rhs_blk0_0 _ _).trans hk
    | ⟨1, _⟩ => exact rhs_blk0_1 _ _)
  rw [el, er]
  rfl

/-- The index maps over the grid: point t takes row block t of the left factor and of the result, and the whole right factor. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays the region finds. -/
theorem flushedProduct0 (c : Dev nD) (t : Fin cfg0.N) :
    (dat0 V c).flushed 2 t = ((cfg0.win 2).blk t).view.read (Elt Ideal) (mm0 (V c main_arg0) (V c main_arg2)) := by
  show (cfg0.win 2).cut (grid0.coords t) ((dat0 V c).after 2 t) = _
  rw [after0_2]
  unfold out0_2
  rw [View.canon_unit_zero zeroOffsets0]
  simp only [View.ld_unit_zero (S := S5000x256) zeroOffsets0, View.ld_unit_zero (S := S256x128) zeroOffsets0]
  obtain ⟨e0, e1, e2, e3, e4, e5⟩ := blockIndex0 t
  funext j
  show k0_pay1 (F := Ideal) (iblk0 V c 0 t) (iblk0 V c 1 t) j = mm0 (V c main_arg0) (V c main_arg2) (((cfg0.win 2).blk t).view.emb j)
  refine (blockProduct0_apply (iblk0 V c 0 t) (iblk0 V c 1 t) j).trans ?_
  unfold mm0
  refine Finset.sum_congr rfl fun k _ => ?_
  have h0 : ((cfg0.win 0).blk t).view.emb (blix0 j k) = lix0 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (brix0 j k) = rix0 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  have r0 : (iblk0 V c 0 t) (blix0 j k) = V c main_arg0 (lix0 (((cfg0.win 2).blk t).view.emb j) k) := by
    show V c main_arg0 (((cfg0.win 0).blk t).view.emb (blix0 j k)) = _
    rw [h0]
  have r1 : (iblk0 V c 1 t) (brix0 j k) = V c main_arg2 (rix0 (((cfg0.win 2).blk t).view.emb j) k) := by
    show V c main_arg2 (((cfg0.win 1).blk t).view.emb (brix0 j k)) = _
    rw [h1]
  exact congrArg₂ (fun (a b : EReal) => a * b) r0 r1

/-- An index of the result is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v26).slice (win0_2.rect t)).set ↔ _
  rw [View.set_slice_whole, Rect.mem_set_unit]
  exact Iff.rfl

/-- Row r of the result lies in the block of point r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := blockIndex0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the first region leaves is the whole product of the two arrays it finds. -/
theorem region0_value (c : Dev nD) :
    (dat0 V c).arrAt 2 cfg0.N = mm0 (V c main_arg0) (V c main_arg2) :=
  (dat0 V c).arrAt_eq_of_cover 2 (mm0 (V c main_arg0) (V c main_arg2)) (fun t _ => flushedProduct0 V c t) covered0

end Cert.KernelIdeal.Hand

end
-- ==== Proof.Region1.lean ====
/-
  The second matrix product (h · w, 128 contracted columns, 64 result columns), read off the pipeline: the 20 row blocks of 5000 rows tile the [100000, 64] result, block t
  holding rows 5000 t … 5000 t + 4999, and each entry (r, q) of a block is the sum over k of x[r, k] · w[k, q] of that
  block's rows of x and of the whole of w (the kernel rounds both to bf16 first, which at the ideal instance is the
  identity, and accumulates into zero). So the array the region leaves is the whole product x · w, index by index.
-/
import proofs.«148459_j62423054680283_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

/-- Row `i 0` of the left factor at column `k`. -/
abbrev lix1 (i : S100000x64.Idx) (k : Fin 128) : S100000x128.Idx := fun a => match a with
  | ⟨0, _⟩ => ⟨(i 0).val, (i 0).isLt⟩
  | ⟨1, _⟩ => ⟨k.val, k.isLt⟩
/-- Row `k` of the right factor at column `i 1`. -/
abbrev rix1 (i : S100000x64.Idx) (k : Fin 128) : S128x64.Idx := fun a => match a with
  | ⟨0, _⟩ => ⟨k.val, k.isLt⟩
  | ⟨1, _⟩ => ⟨(i 1).val, (i 1).isLt⟩

/-- The whole product, index by index, on the extended reals. -/
def mm1 (x : S100000x128.Idx → EReal) (w : S128x64.Idx → EReal) : S100000x64.Idx → EReal :=
  fun i => ∑ k : Fin 128, x (lix1 i k) * w (rix1 i k)

/-- The same two index maps inside one block. -/
abbrev blix1 (j : S5000x64.Idx) (k : Fin 128) : S5000x128.Idx := fun a => match a with
  | ⟨0, _⟩ => ⟨(j 0).val, (j 0).isLt⟩
  | ⟨1, _⟩ => ⟨k.val, k.isLt⟩
abbrev brix1 (j : S5000x64.Idx) (k : Fin 128) : S128x64.Idx := fun a => match a with
  | ⟨0, _⟩ => ⟨k.val, k.isLt⟩
  | ⟨1, _⟩ => ⟨(j 1).val, (j 1).isLt⟩

theorem zeroOffsets1 : (![0, 0] : Fin 2 → Nat) = fun _ => 0 := funext fun a => by fin_cases a <;> rfl

/-! The block product's dimension numbers: axis 0 of the left factor is the result's row, axis 1 the contracted one;
    axis 0 of the right factor the contracted one, axis 1 the result's column. -/
theorem lhs_blk1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blk1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_blk1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_blk1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One entry of the block the body stores: the sum over the contracted axis of the products of the two loaded blocks. -/
theorem blockProduct1_apply (x0 : Vec Ideal S5000x128 .f32) (x1 : Vec Ideal S128x64 .f32) (j : S5000x64.Idx) :
    k1_pay1 (F := Ideal) x0 x1 j = ∑ k : Fin 128, (x0 (blix1 j k) : EReal) * (x1 (brix1 j k) : EReal) := by
  unfold k1_pay1
  simp only [matmul, shapeCast_self]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blix1 j k := funext fun a => Fin.ext (by
    match a with
    | ⟨0, _⟩ => exact lhs_blk1_0 _ _
    | ⟨1, _⟩ => exact (lhs_blk1_1 _ _).trans hk)
  have er : dot_S5000x128_S128x64_S5000x64_1_0_0_1_n_n.rhsIdx j ((ValueIdx.contrEquiv1 dot_S5000x128_S128x64_S5000x64_1_0_0_1_n_n 128 rfl rfl).symm k) = brix1 j k := funext fun a => Fin.ext (by
    match a with
    | ⟨0, _⟩ => exact (rhs_blk1_0 _ _).trans hk
    | ⟨1, _⟩ => exact rhs_blk1_1 _ _)
  rw [el, er]
  rfl

/-- The index maps over the grid: point t takes row block t of the left factor and of the result, and the whole right factor. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the whole product of the arrays the region finds. -/
theorem flushedProduct1 (c : Dev nD) (t : Fin cfg1.N) :
    (dat1 V c).flushed 2 t = ((cfg1.win 2).blk t).view.read (Elt Ideal) (mm1 (V c main_v48) (V c main_arg4)) := by
  show (cfg1.win 2).cut (grid1.coords t) ((dat1 V c).after 2 t) = _
  rw [after1_2]
  unfold out1_2
  rw [View.canon_unit_zero zeroOffsets1]
  simp only [View.ld_unit_zero (S := S5000x128) zeroOffsets1, View.ld_unit_zero (S := S128x64) zeroOffsets1]
  obtain ⟨e0, e1, e2, e3, e4, e5⟩ := blockIndex1 t
  funext j
  show k1_pay1 (F := Ideal) (iblk1 V c 0 t) (iblk1 V c 1 t) j = mm1 (V c main_v48) (V c main_arg4) (((cfg1.win 2).blk t).view.emb j)
  refine (blockProduct1_apply (iblk1 V c 0 t) (iblk1 V c 1 t) j).trans ?_
  unfold mm1
  refine Finset.sum_congr rfl fun k _ => ?_
  have h0 : ((cfg1.win 0).blk t).view.emb (blix1 j k) = lix1 (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (brix1 j k) = rix1 (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  have r0 : (iblk1 V c 0 t) (blix1 j k) = V c main_v48 (lix1 (((cfg1.win 2).blk t).view.emb j) k) := by
    show V c main_v48 (((cfg1.win 0).blk t).view.emb (blix1 j k)) = _
    rw [h0]
  have r1 : (iblk1 V c 1 t) (brix1 j k) = V c main_arg4 (rix1 (((cfg1.win 2).blk t).view.emb j) k) := by
    show V c main_arg4 (((cfg1.win 1).blk t).view.emb (brix1 j k)) = _
    rw [h1]
  exact congrArg₂ (fun (a b : EReal) => a * b) r0 r1

/-- An index of the result is in point t's block iff each coordinate is in the block's range on its axis. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- Row r of the result lies in the block of point r / 5000. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5⟩ := blockIndex1 t
  have ht : t.val = (i 0).val / 5000 := rfl
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The array the second region leaves is the whole product of the two arrays it finds. -/
theorem region1_value (c : Dev nD) :
    (dat1 V c).arrAt 2 cfg1.N = mm1 (V c main_v48) (V c main_arg4) :=
  (dat1 V c).arrAt_eq_of_cover 2 (mm1 (V c main_v48) (V c main_arg4)) (fun t _ => flushedProduct1 V c t) covered1

end Cert.KernelIdeal.Hand

end
-- ==== Proof.SoftmaxSpec.lean ====
/-
  The row-wise log-softmax of a [100000, 64] array on the extended reals, index by index. With M the maximum of a
  row (the fold of max from ⊥ over its 64 entries), entry (r, q) of the result is
  (a (r, q) − M) − log (∑ k, exp (a (r, k) − M)), exp and log being the extended-real ones (exp ⊥ = 0, log 0 = ⊥).
-/
import proofs.«148459_j62423054680283_1_alg».proof.KernelIdeal
import Idealize.ShloMosaic.PureOps.Ideal

noncomputable section

open scoped BigOperators

namespace Cert.KernelIdeal.Hand

open Cert.KernelIdeal
open Idealize.ShloMosaic

/-- Entry `k` of the row of `i`. -/
abbrev smRowIx (i : S100000x64.Idx) (k : Fin 64) : S100000x64.Idx := fun a => match a with
  | ⟨0, _⟩ => ⟨(i 0).val, (i 0).isLt⟩
  | ⟨1, _⟩ => ⟨k.val, k.isLt⟩

/-- The maximum of the row of `i`: the fold of max from ⊥ over the row's 64 entries. -/
def smRowMax (a : S100000x64.Idx → EReal) (i : S100000x64.Idx) : EReal :=
  (Finset.univ : Finset (Fin 64)).fold max ⊥ (fun k => a (smRowIx i k))

/-- The row's sum of exponentials of the entries shifted by the row's maximum. -/
def smRowExpSum (a : S100000x64.Idx → EReal) (i : S100000x64.Idx) : EReal :=
  ∑ k : Fin 64, Ideal.exp (a (smRowIx i k) - smRowMax a i)

/-- The log-softmax along the rows, index by index. -/
def logSoftmaxRows (a : S100000x64.Idx → EReal) : S100000x64.Idx → EReal :=
  fun i => (a i - smRowMax a i) - Ideal.log (smRowExpSum a i)

/-- The f32 pattern of −∞ is the bottom of the extended reals. -/
theorem smOfBits_negInf : Ideal.ofBits .f32 0xFF800000#32 = ⊥ := by
  simp [Ideal.ofBits, Ideal.ieee]

end Cert.KernelIdeal.Hand

end
-- ==== Proof.Region2.lean ====
/-
  The row-blocked log-softmax, read off the pipeline: the 20 row blocks of 5000 rows tile the [100000, 64] result, block
  t holding rows 5000 t … 5000 t + 4999, and each entry (r, q) of a block is the entry of that block of the input less
  its row's maximum, less the logarithm of the row's sum of exponentials of the entries so shifted. A row lies whole in
  one block, so the array the region leaves is the row-wise log-softmax of the array it finds, index by index.
-/
import proofs.«148459_j62423054680283_1_alg».proof.Proof.Gen.KernelIdeal.Frame
import proofs.«148459_j62423054680283_1_alg».proof.Proof.SoftmaxSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)

/-- Entry `k` of the row of `j` inside a block. -/
abbrev smBlkRowIx (j : S5000x64.Idx) (k : Fin 64) : S5000x64.Idx := fun a => match a with
  | ⟨0, _⟩ => ⟨(j 0).val, (j 0).isLt⟩
  | ⟨1, _⟩ => ⟨k.val, k.isLt⟩

/-- The row of `j` as an index of the column of row results. -/
abbrev smBlkRowOf (j : S5000x64.Idx) : S5000.Idx := fun a => match a with
  | ⟨0, _⟩ => ⟨(j 0).val, (j 0).isLt⟩

/-- The maximum of the row of `j` of a block. -/
def smBlkRowMax (x : S5000x64.Idx → EReal) (j : S5000x64.Idx) : EReal :=
  (Finset.univ : Finset (Fin 64)).fold max ⊥ (fun k => x (smBlkRowIx j k))

/-- A column of row results kept as a [5000, 1] matrix and spread over the 64 columns reads, at (r, q), result r. -/
theorem smSpreadRows_apply {α : Type} (v : S5000.Idx → α) (h1 : S5000.ShapeCasts S5000x1) (h2 : S5000x1.Broadcasts S5000x64)
    (j : S5000x64.Idx) : broadcastTo S5000x64 (shapeCast S5000x1 v h1) h2 j = v (smBlkRowOf j) := by
  let c : S5000x1.Idx := fun a => match a with
    | ⟨0, _⟩ => ⟨(j 0).val, (j 0).isLt⟩
    | ⟨1, _⟩ => ⟨0, Nat.one_pos⟩
  refine (broadcastTo_apply (shapeCast S5000x1 v h1) h2 j c (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])).trans ?_
  refine shapeCast_apply v h1 c (smBlkRowOf j) ?_
  rw [Shape.rowMajor_val_one, Shape.rowMajor_val_two]
  show (j 0).val = (j 0).val * 1 + 0
  omega

/-- The row maximum the body takes: the fold of max from ⊥ over the row's 64 entries. -/
theorem smRowMaxRed_apply (x : FVec Ideal S5000x64 .f32) (h : S5000x64.Reduces [1] S5000) (hφ : FKind.Formats .f32)
    (hacc : (0xFF800000#32 : BitVec 32) = FKind.maximumf.neutral .f32 hφ) (j : S5000x64.Idx) :
    multiReduction (F := Ideal) .maximumf [1] S5000 x 0xFF800000#32 h hφ hacc (smBlkRowOf j) = smBlkRowMax x j := by
  show Idealize.ShloMosaic.multiReduction (F := Ideal) .maximumf [1] S5000 x 0xFF800000#32 h hφ hacc (smBlkRowOf j) = _
  rw [Ideal.multiReduction_maximumf_single]
  unfold smBlkRowMax
  rw [show FloatOps.ofBits (F := Ideal) .f32 0xFF800000#32 = (⊥ : EReal) from smOfBits_negInf]
  refine congrArg (Finset.fold max (⊥ : EReal) · Finset.univ) (funext fun k => ?_)
  exact congrArg x (funext fun a => Fin.ext (by match a with | ⟨0, _⟩ => rfl | ⟨1, _⟩ => rfl))

/-- The row sum the body takes: the sum over the row's 64 entries. -/
theorem smRowSumRed_apply (x : FVec Ideal S5000x64 .f32) (h : S5000x64.Reduces [1] S5000) (hφ : FKind.Formats .f32)
    (hacc : (0x00000000#32 : BitVec 32) = FKind.add.neutral .f32 hφ) (j : S5000x64.Idx) :
    multiReduction (F := Ideal) .add [1] S5000 x 0x00000000#32 h hφ hacc (smBlkRowOf j) = ∑ k : Fin 64, (x (smBlkRowIx j k) : EReal) := by
  show Idealize.ShloMosaic.multiReduction (F := Ideal) .add [1] S5000 x 0x00000000#32 h hφ hacc (smBlkRowOf j) = _
  rw [Ideal.multiReduction_add_single]
  refine Finset.sum_congr rfl fun k _ => ?_
  exact congrArg x (funext fun a => Fin.ext (by match a with | ⟨0, _⟩ => rfl | ⟨1, _⟩ => rfl))

/-- A column of row results kept as a [5000, 1] matrix, mapped entry by entry and spread over the 64 columns reads, at
    (r, q), the image of result r. -/
theorem smSpreadRowsMap_apply {α β : Type} (f : α → β) (v : S5000.Idx → α) (h1 : S5000.ShapeCasts S5000x1) (h2 : S5000x1.Broadcasts S5000x64)
    (j : S5000x64.Idx) : broadcastTo S5000x64 (fun c => f (shapeCast S5000x1 v h1 c)) h2 j = f (v (smBlkRowOf j)) := by
  let c : S5000x1.Idx := fun a => match a with
    | ⟨0, _⟩ => ⟨(j 0).val, (j 0).isLt⟩
    | ⟨1, _⟩ => ⟨0, Nat.one_pos⟩
  refine (broadcastTo_apply (fun c => f (shapeCast S5000x1 v h1 c)) h2 j c (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])).trans ?_
  refine congrArg f (shapeCast_apply v h1 c (smBlkRowOf j) ?_)
  rw [Shape.rowMajor_val_one, Shape.rowMajor_val_two]
  show (j 0).val = (j 0).val * 1 + 0
  omega

/-- The entries shifted by their row's maximum. -/
theorem smShiftBlock_apply (x : FVec Ideal S5000x64 .f32) (h : S5000x64.Reduces [1] S5000) (hφ : FKind.Formats .f32)
    (hacc : (0xFF800000#32 : BitVec 32) = FKind.maximumf.neutral .f32 hφ) (h1 : S5000.ShapeCasts S5000x1)
    (h2 : S5000x1.Broadcasts S5000x64) (i : S5000x64.Idx) :
    subf (F := Ideal) x (broadcastTo S5000x64 (shapeCast S5000x1 (multiReduction (F := Ideal) .maximumf [1] S5000 x 0xFF800000#32 h hφ hacc) h1) h2) i
      = (x i : EReal) - smBlkRowMax x i :=
  congrArg (fun e : EReal => (x i : EReal) - e) ((smSpreadRows_apply _ h1 h2 i).trans (smRowMaxRed_apply x h hφ hacc i))

/-- The entries less the logarithm of their row's sum of exponentials. -/
theorem smLseBlock_apply (z : FVec Ideal S5000x64 .f32) (h : S5000x64.Reduces [1] S5000) (hφ : FKind.Formats .f32)
    (hacc : (0x00000000#32 : BitVec 32) = FKind.add.neutral .f32 hφ) (h1 : S5000.ShapeCasts S5000x1)
    (h2 : S5000x1.Broadcasts S5000x64) (j : S5000x64.Idx) :
    subf (F := Ideal) z (broadcastTo S5000x64 (log (F := Ideal) (shapeCast S5000x1 (multiReduction (F := Ideal) .add [1] S5000 (exp (F := Ideal) z) 0x00000000#32 h hφ hacc) h1)) h2) j
      = (z j : EReal) - Ideal.log (∑ k : Fin 64, Ideal.exp (z (smBlkRowIx j k) : EReal)) := by
  refine congrArg (fun e : EReal => (z j : EReal) - e) ?_
  refine (smSpreadRowsMap_apply (fun e : EReal => Ideal.log e) _ h1 h2 j).trans ?_
  exact congrArg Ideal.log (smRowSumRed_apply (exp (F := Ideal) z) h hφ hacc j)

/-- One entry of the block the body stores: the entry less its row's maximum, less the logarithm of the row's sum of
    exponentials of the entries so shifted. -/
theorem logSoftmaxBlock_apply (x0 : Vec Ideal S5000x64 .f32) (j : S5000x64.Idx) :
    k2_pay1 (F := Ideal) x0 j
      = ((x0 j : EReal) - smBlkRowMax x0 j) - Ideal.log (∑ k : Fin 64, Ideal.exp ((x0 (smBlkRowIx j k) : EReal) - smBlkRowMax x0 j)) := by
  unfold k2_pay1
  simp only [shapeCast_self]
  refine (smLseBlock_apply _ _ _ _ _ _ j).trans ?_
  have hz := fun i : S5000x64.Idx => smShiftBlock_apply x0 reduces_S5000x64_S5000 (.inl rfl) rfl shapeCasts_S5000_S5000x1 broadcasts_S5000x1_S5000x64 i
  exact congrArg₂ (fun (a b : EReal) => a - Ideal.log b) (hz j)
    (Finset.sum_congr rfl fun k _ => congrArg Ideal.exp (hz (smBlkRowIx j k)))

theorem zeroOffsets2 : (![0, 0] : Fin 2 → Nat) = fun _ => 0 := funext fun a => by fin_cases a <;> rfl

/-- The index maps over the grid: point t takes row block t of the input and of the result. -/
theorem blockIndex2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

variable (V : (c : Dev nD) → (b : Ref sig .tc) → Buf (Elt Ideal) ((c : Thread nD τ).loc b))

/-- What point t writes back is block t of the row-wise log-softmax of the array the region finds. -/
theorem flushedSoftmax2 (c : Dev nD) (t : Fin cfg2.N) :
    (dat2 V c).flushed 1 t = ((cfg2.win 1).blk t).view.read (Elt Ideal) (logSoftmaxRows (V c main_v70)) := by
  show (cfg2.win 1).cut (grid2.coords t) ((dat2 V c).after 1 t) = _
  rw [after2_1]
  unfold out2_1
  rw [View.canon_unit_zero zeroOffsets2]
  simp only [View.ld_unit_zero (S := S5000x64) zeroOffsets2]
  obtain ⟨e0, e1, e2, e3⟩ := blockIndex2 t
  funext j
  show k2_pay1 (F := Ideal) (iblk2 V c 0 t) j = logSoftmaxRows (V c main_v70) (((cfg2.win 1).blk t).view.emb j)
  refine (logSoftmaxBlock_apply (iblk2 V c 0 t) j).trans ?_
  have hj : ((cfg2.win 0).blk t).view.emb j = ((cfg2.win 1).blk t).view.emb j := by
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 64 + 1 * (j 1).val = win2_1.index t (1 : Fin 2) * 64 + 1 * (j 1).val; omega
  have hk : ∀ k : Fin 64, ((cfg2.win 0).blk t).view.emb (smBlkRowIx j k) = smRowIx (((cfg2.win 1).blk t).view.emb j) k := by
    intro k
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 64 + 1 * k.val = k.val; omega
  have rj : (iblk2 V c 0 t) j = V c main_v70 (((cfg2.win 1).blk t).view.emb j) := by
    show V c main_v70 (((cfg2.win 0).blk t).view.emb j) = _
    rw [hj]
  have rk : ∀ k : Fin 64, (iblk2 V c 0 t) (smBlkRowIx j k) = V c main_v70 (smRowIx (((cfg2.win 1).blk t).view.emb j) k) := by
    intro k
    show V c main_v70 (((cfg2.win 0).blk t).view.emb (smBlkRowIx j k)) = _
    rw [hk k]
  have hM : smBlkRowMax (iblk2 V c 0 t) j = smRowMax (V c main_v70) (((cfg2.win 1).blk t).view.emb j) :=
    congrArg (fun f : Fin 64 → EReal => (Finset.univ : Finset (Fin 64)).fold max ⊥ f) (funext rk)
  unfold logSoftmaxRows smRowExpSum
  exact congrArg₂ (fun (a b : EReal) => a - Ideal.log b) (congrArg₂ (fun (a b : EReal) => a - b) rj hM)
    (Finset.sum_congr rfl fun k _ => congrArg Ideal.exp (congrArg₂ (fun (a b : EReal) => a - b) (rk k) hM))

/-- An index of the result is in point t's block iff each coordinate is in the block's range on its axis. -/
theorem mem_block2 (t : Fin cfg2.N) (i : S100000x64.Idx) :
    i ∈ ((cfg2.win 1).blk t).view.set ↔ ∀ a : Fin 2, win2_1.index t a * S5000x64.size a ≤ (i a).val ∧ (i a).val < win2_1.index t a * S5000x64.size a + S5000x64.size a := by
  show i ∈ ((View.whole main_v71).slice (win2_1.rect t)).set ↔ _
  rw [View.set_slice_whole, Rect.mem_set_unit]
  exact Iff.rfl

/-- Row r of the result lies in the block of point r / 5000. -/
theorem covered2 (i : S100000x64.Idx) :
    ∃ t : Fin cfg2.N, (cfg2.win 1).flush t = true ∧ i ∈ ((cfg2.win 1).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3⟩ := blockIndex2 t
  have ht : t.val = (i 0).val / 5000 := rfl
  refine ⟨t, flush2_1 t, ?_⟩
  rw [mem_block2]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 64 ≤ (i 1).val ∧ (i 1).val < win2_1.index t (1 : Fin 2) * 64 + 64; omega

/-- The array the third region leaves is the row-wise log-softmax of the array it finds. -/
theorem region2_value (c : Dev nD) :
    (dat2 V c).arrAt 1 cfg2.N = logSoftmaxRows (V c main_v70) :=
  (dat2 V c).arrAt_eq_of_cover 1 (logSoftmaxRows (V c main_v70)) (fun t _ => flushedSoftmax2 V c t) covered2

end Cert.KernelIdeal.Hand

end
-- ==== Proof.Stretch0.lean ====
/-
  The host operations before the first region read only edge_index: its two rows (source and target node of every edge,
  a negative index wrapped by + 100000), the degree of every node (1 + the number of edges that end in it, by a
  scatter-add of ones), its inverse square root, and per edge the product of the two end nodes' inverse roots. The
  reference computes the same four arrays with the same operations; so each is the reference's stage of edge_index.
  No argument array is written.
-/
import proofs.«148459_j62423054680283_1_alg».proof.Proof.RefRead
import proofs.«148459_j62423054680283_1_alg».proof.Proof.Gen.KernelIdeal.Launch
import Idealize.ShloMosaic.Lib.StableHlo.Run

set_option maxRecDepth 16384

noncomputable section

namespace Cert.KernelIdeal.Hand

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

/-- The source row of edge_index. -/
theorem stretch0_src (W : Valuation τ sig (Elt F)) :
    after (hostOps0 (F := F)) W (Proc.devRef .tc main_v1) = val_main_v1 (F := F) (W (Proc.devRef .tc main_arg1)) := by
  after_results_simp
  simp only [val_main_v1, val_main_v0]
  rfl

/-- The target row of edge_index. -/
theorem stretch0_dst (W : Valuation τ sig (Elt F)) :
    after (hostOps0 (F := F)) W (Proc.devRef .tc main_v3) = val_main_v3 (F := F) (W (Proc.devRef .tc main_arg1)) := by
  after_results_simp
  simp only [val_main_v3, val_main_v2]
  rfl

set_option maxHeartbeats 2000000 in
/-- The inverse square root of every node's degree. -/
theorem stretch0_dinv (W : Valuation τ sig (Elt F)) :
    after (hostOps0 (F := F)) W (Proc.devRef .tc main_v10) = val_main_v11 (F := F) (W (Proc.devRef .tc main_arg1)) := by
  after_results_simp
  simp only [val_main_v11, val_main_v10, val_main_v9, val_main_cst_1, val_main_v8, val_main_v7, val_main_v6, val_main_cst_0, val_main_v5, val_main_cst, val_main_v3, val_main_v2]
  rfl

set_option maxHeartbeats 4000000 in
/-- Per edge, the product of its two end nodes' inverse roots. -/
theorem stretch0_coef (W : Valuation τ sig (Elt F)) :
    after (hostOps0 (F := F)) W (Proc.devRef .tc main_v25) = val_main_v26 (F := F) (W (Proc.devRef .tc main_arg1)) := by
  after_results_simp
  simp only [val_main_v26, val_main_v25, val_main_v24, val_main_v23, val_main_v22, val_main_v21, val_main_c_4, val_main_v20, val_main_v19, val_main_c_3, val_main_v18, val_main_v17, val_main_v16, val_main_v15, val_main_v14, val_main_c_2, val_main_v13, val_main_v12, val_main_c, val_main_v11, val_main_v10, val_main_v9, val_main_cst_1, val_main_v8, val_main_v7, val_main_v6, val_main_cst_0, val_main_v5, val_main_cst, val_main_v3, val_main_v2, val_main_v1, val_main_v0]
  rfl

/-! No operation of the stretch writes an argument array. -/
theorem stretch0_arg0 (W : Valuation τ sig (Elt F)) :
    after (hostOps0 (F := F)) W (Proc.devRef .tc main_arg0) = W (Proc.devRef .tc main_arg0) := by
  after_results_simp
theorem stretch0_arg1 (W : Valuation τ sig (Elt F)) :
    after (hostOps0 (F := F)) W (Proc.devRef .tc main_arg1) = W (Proc.devRef .tc main_arg1) := by
  after_results_simp
theorem stretch0_arg2 (W : Valuation τ sig (Elt F)) :
    after (hostOps0 (F := F)) W (Proc.devRef .tc main_arg2) = W (Proc.devRef .tc main_arg2) := by
  after_results_simp
theorem stretch0_arg3 (W : Valuation τ sig (Elt F)) :
    after (hostOps0 (F := F)) W (Proc.devRef .tc main_arg3) = W (Proc.devRef .tc main_arg3) := by
  after_results_simp
theorem stretch0_arg4 (W : Valuation τ sig (Elt F)) :
    after (hostOps0 (F := F)) W (Proc.devRef .tc main_arg4) = W (Proc.devRef .tc main_arg4) := by
  after_results_simp
theorem stretch0_arg5 (W : Valuation τ sig (Elt F)) :
    after (hostOps0 (F := F)) W (Proc.devRef .tc main_arg5) = W (Proc.devRef .tc main_arg5) := by
  after_results_simp

end Cert.KernelIdeal.Hand

end
-- ==== Proof.Stretch1.lean ====
/-
  Between the first and the second region the host aggregates the first product h over the graph: per edge the source
  node's row of h times the edge's coefficient, scatter-added into the target node's row; plus each node's own row times
  its squared inverse root; plus the bias; then the maximum with zero. The reference applies the same operations to its
  own product, so where the region's array is the reference's product the result is the reference's stage.
-/
import proofs.«148459_j62423054680283_1_alg».proof.Proof.RefRead
import proofs.«148459_j62423054680283_1_alg».proof.Proof.Gen.KernelIdeal.Launch
import Idealize.ShloMosaic.Lib.StableHlo.Run

set_option maxRecDepth 16384

noncomputable section

namespace Cert.KernelIdeal.Hand

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

set_option maxHeartbeats 8000000 in
/-- The first layer's output, given the first product and the graph's arrays. -/
theorem stretch1_layer (W : Valuation τ sig (Elt F)) (x0 : (⟨Cert.ReferenceIdeal.S100000x256, .f32⟩ : BufTy).Contents (Elt F)) (x1 : (⟨Cert.ReferenceIdeal.S2x1600000, .i32⟩ : BufTy).Contents (Elt F)) (x2 : (⟨Cert.ReferenceIdeal.S256x128, .f32⟩ : BufTy).Contents (Elt F)) (x3 : (⟨Cert.ReferenceIdeal.S128, .f32⟩ : BufTy).Contents (Elt F))
    (h26 : W (Proc.devRef .tc main_v26) = val_main_v4 (F := F) x0 x2) (h1 : W (Proc.devRef .tc main_v1) = val_main_v1 (F := F) x1) (h3 : W (Proc.devRef .tc main_v3) = val_main_v3 (F := F) x1)
    (h10 : W (Proc.devRef .tc main_v10) = val_main_v11 (F := F) x1) (h25 : W (Proc.devRef .tc main_v25) = val_main_v26 (F := F) x1) (ha3 : W (Proc.devRef .tc main_arg3) = x3) :
    after (hostOps1_1 (F := F)) (after (hostOps1 (F := F)) W) (Proc.devRef .tc main_v48) = val_main_v48 (F := F) x0 x1 x2 x3 := by
  after_results_simp
  try simp only [TRef.ofBuf, TRef.toBuf, cast_eq]
  simp only [h26, h1, h3, h10, h25, ha3]
  simp only [val_main_v48, val_main_call0_v0, val_main_call0_cst, val_main_v47, val_main_v46, val_main_v45, val_main_v44, val_main_v43, val_main_v42, val_main_v41, val_main_v40, val_main_v39, val_main_v38, val_main_v37, val_main_cst_7, val_main_v36, val_main_v35, val_main_v34, val_main_v33, val_main_v32, val_main_v31, val_main_v30, val_main_v29, val_main_c_6, val_main_v28, val_main_v27, val_main_c_5]
  rfl

/-! The buffers later segments still read are not written between the two regions. -/
theorem stretch1_keeps_v1 (W : Valuation τ sig (Elt F)) :
    after (hostOps1_1 (F := F)) (after (hostOps1 (F := F)) W) (Proc.devRef .tc main_v1) = W (Proc.devRef .tc main_v1) := by
  after_results_simp
theorem stretch1_keeps_v3 (W : Valuation τ sig (Elt F)) :
    after (hostOps1_1 (F := F)) (after (hostOps1 (F := F)) W) (Proc.devRef .tc main_v3) = W (Proc.devRef .tc main_v3) := by
  after_results_simp
theorem stretch1_keeps_v10 (W : Valuation τ sig (Elt F)) :
    after (hostOps1_1 (F := F)) (after (hostOps1 (F := F)) W) (Proc.devRef .tc main_v10) = W (Proc.devRef .tc main_v10) := by
  after_results_simp
theorem stretch1_keeps_v25 (W : Valuation τ sig (Elt F)) :
    after (hostOps1_1 (F := F)) (after (hostOps1 (F := F)) W) (Proc.devRef .tc main_v25) = W (Proc.devRef .tc main_v25) := by
  after_results_simp
theorem stretch1_keeps_arg4 (W : Valuation τ sig (Elt F)) :
    after (hostOps1_1 (F := F)) (after (hostOps1 (F := F)) W) (Proc.devRef .tc main_arg4) = W (Proc.devRef .tc main_arg4) := by
  after_results_simp
theorem stretch1_keeps_arg5 (W : Valuation τ sig (Elt F)) :
    after (hostOps1_1 (F := F)) (after (hostOps1 (F := F)) W) (Proc.devRef .tc main_arg5) = W (Proc.devRef .tc main_arg5) := by
  after_results_simp

end Cert.KernelIdeal.Hand

end
-- ==== Proof.Stretch2.lean ====
/-
  Between the second and the third region the host aggregates the second product over the graph in the same way and
  adds the second bias. The kernel's program reuses the inverse roots and the edge coefficients computed before the first
  region; the reference computes them a second time, by the same operations of edge_index: the same arrays.
-/
import proofs.«148459_j62423054680283_1_alg».proof.Proof.RefRead
import proofs.«148459_j62423054680283_1_alg».proof.Proof.Gen.KernelIdeal.Launch
import Idealize.ShloMosaic.Lib.StableHlo.Run

set_option maxRecDepth 16384

noncomputable section

namespace Cert.KernelIdeal.Hand

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

set_option maxHeartbeats 2000000 in
/-- The reference's second computation of the inverse roots is its first. -/
theorem dinv_again (x1 : (⟨Cert.ReferenceIdeal.S2x1600000, .i32⟩ : BufTy).Contents (Elt F)) : val_main_v56 (F := F) x1 = val_main_v11 (F := F) x1 := by
  simp only [val_main_v56, val_main_v55, val_main_v54, val_main_cst_10, val_main_v53, val_main_v52, val_main_v51, val_main_cst_9, val_main_v50, val_main_cst_8,
    val_main_v11, val_main_v10, val_main_v9, val_main_cst_1, val_main_v8, val_main_v7, val_main_v6, val_main_cst_0, val_main_v5, val_main_cst]

set_option maxHeartbeats 4000000 in
/-- The reference's second computation of the edge coefficients is its first. -/
theorem coef_again (x1 : (⟨Cert.ReferenceIdeal.S2x1600000, .i32⟩ : BufTy).Contents (Elt F)) : val_main_v71 (F := F) x1 = val_main_v26 (F := F) x1 := by
  simp only [val_main_v71, val_main_v70, val_main_v69, val_main_v68, val_main_v67, val_main_v66, val_main_c_14, val_main_v65, val_main_v64, val_main_c_13, val_main_v63, val_main_v62, val_main_v61, val_main_v60, val_main_v59, val_main_c_12, val_main_v58, val_main_v57, val_main_c_11, dinv_again,
    val_main_v26, val_main_v25, val_main_v24, val_main_v23, val_main_v22, val_main_v21, val_main_c_4, val_main_v20, val_main_v19, val_main_c_3, val_main_v18, val_main_v17, val_main_v16, val_main_v15, val_main_v14, val_main_c_2, val_main_v13, val_main_v12, val_main_c]

set_option maxHeartbeats 8000000 in
/-- The second layer's output before the softmax, given the second product and the graph's arrays. -/
theorem stretch2_layer (W : Valuation τ sig (Elt F)) (x0 : (⟨Cert.ReferenceIdeal.S100000x256, .f32⟩ : BufTy).Contents (Elt F)) (x1 : (⟨Cert.ReferenceIdeal.S2x1600000, .i32⟩ : BufTy).Contents (Elt F)) (x2 : (⟨Cert.ReferenceIdeal.S256x128, .f32⟩ : BufTy).Contents (Elt F)) (x3 : (⟨Cert.ReferenceIdeal.S128, .f32⟩ : BufTy).Contents (Elt F)) (x4 : (⟨Cert.ReferenceIdeal.S128x64, .f32⟩ : BufTy).Contents (Elt F)) (x5 : (⟨Cert.ReferenceIdeal.S64, .f32⟩ : BufTy).Contents (Elt F))
    (h49 : W (Proc.devRef .tc main_v49) = val_main_v49 (F := F) x0 x1 x2 x3 x4) (h1 : W (Proc.devRef .tc main_v1) = val_main_v1 (F := F) x1) (h3 : W (Proc.devRef .tc main_v3) = val_main_v3 (F := F) x1)
    (h10 : W (Proc.devRef .tc main_v10) = val_main_v11 (F := F) x1) (h25 : W (Proc.devRef .tc main_v25) = val_main_v26 (F := F) x1) (ha5 : W (Proc.devRef .tc main_arg5) = x5) :
    after (hostOps2 (F := F)) W (Proc.devRef .tc main_v70) = val_main_v92 (F := F) x0 x1 x2 x3 x4 x5 := by
  after_results_simp
  simp only [h49, h1, h3, h10, h25, ha5]
  simp only [val_main_v92, val_main_v91, val_main_v90, val_main_v89, val_main_v88, val_main_v87, val_main_v86, val_main_v85, val_main_v84, val_main_v83, val_main_v82, val_main_cst_17, val_main_v81, val_main_v80, val_main_v79, val_main_v78, val_main_v77, val_main_v76, val_main_v75, val_main_v74, val_main_c_16, val_main_v73, val_main_v72, val_main_c_15, dinv_again, coef_again]
  rfl

end Cert.KernelIdeal.Hand

end
-- ==== Proof.RefSoftmax.lean ====
/-
  The reference's log-softmax, read off its operations: a maximum over each row from −∞ (and once more against −∞, which
  changes nothing on the extended reals), the entries less their row's maximum, the exponentials of those, their sum
  over each row from zero, its logarithm, and the shifted entries less that. Index by index it is the row-wise
  log-softmax of the array the stage is given.
-/
import proofs.«148459_j62423054680283_1_alg».proof.Proof.RefRead
import proofs.«148459_j62423054680283_1_alg».proof.Proof.SoftmaxSpec

set_option maxRecDepth 16384

noncomputable section

open scoped BigOperators

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.StableHlo
open Cert.KernelIdeal.Hand (logSoftmaxRows smRowIx smRowMax smRowExpSum smOfBits_negInf)

/-- The reference's row maximum: the reduction over the 64 columns from −∞, then the maximum with −∞, is the fold of
    max from ⊥ over the row's entries. -/
theorem refRowMax_apply (a : (⟨S100000x64, .f32⟩ : BufTy).Contents (Elt Ideal)) (r : S100000.Idx) :
    max (⊥ : EReal) (Host.reduce (FloatOps.maximumf (F := Ideal) (φ := .f32)) a (val_main_call1_cst (F := Ideal)) reducesTo_S100000x64_S100000_d1 h_S_ r)
      = (Finset.univ : Finset (Fin 64)).fold max ⊥ (fun k => (a (idx_main_call1_v7 r k) : EReal)) := by
  rw [max_bot_left, Host.reduce_eq_fold_single (FloatOps.maximumf (F := Ideal) (φ := .f32)) a _ reducesTo_S100000x64_S100000_d1 (by decide) h_S_ r,
    val_main_call1_cst_apply]
  show (Finset.univ : Finset (Fin 64)).fold max (Ideal.ofBits .f32 0xFF800000#32) _ = _
  rw [smOfBits_negInf]
  refine congrArg (fun f : Fin 64 → EReal => (Finset.univ : Finset (Fin 64)).fold max ⊥ f) (funext fun k => ?_)
  exact congrArg a (funext fun b => Fin.ext (by match b with | ⟨0, _⟩ => rfl | ⟨1, _⟩ => rfl))

/-- The reference's shifted entries: each entry less its row's maximum. -/
theorem refShift_apply (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (p : S100000x64.Idx) :
    val_main_call1_v5 (F := Ideal) x0 x1 x2 x3 x4 x5 p
      = (val_main_v92 (F := Ideal) x0 x1 x2 x3 x4 x5 p : EReal) - smRowMax (val_main_v92 (F := Ideal) x0 x1 x2 x3 x4 x5) p := by
  rw [val_main_call1_v5_apply, val_main_call1_v4_apply, val_main_call1_v3_apply, val_main_call1_v2_apply, val_main_call1_v1_apply, val_main_call1_cst_0_apply]
  unfold val_main_call1_v0
  generalize val_main_v92 (F := Ideal) x0 x1 x2 x3 x4 x5 = a
  refine congrArg (fun m : EReal => (a p : EReal) - m) ?_
  show max (Ideal.ofBits .f32 0xFF800000#32) _ = smRowMax a p
  rw [smOfBits_negInf, refRowMax_apply]
  unfold smRowMax
  refine congrArg (fun f : Fin 64 → EReal => (Finset.univ : Finset (Fin 64)).fold max ⊥ f) (funext fun k => ?_)
  exact congrArg a (funext fun b => Fin.ext (by match b with | ⟨0, _⟩ => rfl | ⟨1, _⟩ => rfl))

/-- The row of an entry of the row of `i` is the row of `i`. -/
theorem smRowMax_row (a : S100000x64.Idx → EReal) (i : S100000x64.Idx) (k : Fin 64) : smRowMax a (smRowIx i k) = smRowMax a i := rfl

/-- The reference's row sums: over each row, the exponentials of the entries less the row's maximum. -/
theorem refExpSum_apply (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : S100000.Idx) :
    val_main_call1_v7 (F := Ideal) x0 x1 x2 x3 x4 x5 r
      = ∑ k : Fin 64, Ideal.exp ((val_main_v92 (F := Ideal) x0 x1 x2 x3 x4 x5 (idx_main_call1_v7 r k) : EReal) - smRowMax (val_main_v92 (F := Ideal) x0 x1 x2 x3 x4 x5) (idx_main_call1_v7 r k)) := by
  rw [val_main_call1_v7_apply, val_main_call1_cst_1_apply]
  rw [show FloatOps.ofBits (F := Ideal) .f32 0x00000000#32 = (0 : EReal) from Ideal.ofBits_zero_f32, zero_add]
  refine Finset.sum_congr rfl fun k _ => ?_
  rw [val_main_call1_v6_apply, refShift_apply]
  exact Ideal.hostUnary_exp_def _

/-- The reference's log-softmax stage is the row-wise log-softmax of the array it is given. -/
theorem softmax_stage (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    val_main_v93 (F := Ideal) x0 x1 x2 x3 x4 x5 = Cert.KernelIdeal.Hand.logSoftmaxRows (val_main_v92 (F := Ideal) x0 x1 x2 x3 x4 x5) := by
  funext i
  rw [val_main_v93_apply, val_main_call1_v10_apply, val_main_call1_v9_apply, val_main_call1_v8_apply, refExpSum_apply, refShift_apply]
  generalize val_main_v92 (F := Ideal) x0 x1 x2 x3 x4 x5 = a
  rw [Ideal.subf_def, Ideal.hostUnary_log_def]
  unfold logSoftmaxRows smRowExpSum
  refine congrArg (fun v : EReal => ((a i : EReal) - smRowMax a i) - Ideal.log v) (Finset.sum_congr rfl fun k _ => ?_)
  have hp : idx_main_call1_v7 (idx_main_call1_v8 (idx_main_call1_v10 i)) k = smRowIx i k :=
    funext fun b => Fin.ext (by match b with | ⟨0, _⟩ => rfl | ⟨1, _⟩ => rfl)
  rw [hp]
  exact congrArg (fun m : EReal => Ideal.exp ((a (smRowIx i k) : EReal) - m)) (smRowMax_row a i k)

end Cert.ReferenceIdeal.Hand

end
-- ==== Proof.KernelValue.lean ====
/-
  The kernel's program, boundary by boundary, holds what the reference's stages hold. @main is seven segments: host
  operations, the first matrix product's region, host operations (the first aggregation and the relu), the second
  product's region, host operations (the second aggregation), the log-softmax's region. At each boundary the buffers a
  later segment reads are named as the reference's stages of the six launch arguments: the graph's arrays after the first
  stretch, the first product after the first region, the first layer's output after the second stretch, the second product,
  the second layer's output, and at the end the result.
-/
import proofs.«148459_j62423054680283_1_alg».proof.Proof.KernelRun
import proofs.«148459_j62423054680283_1_alg».proof.Proof.Region0
import proofs.«148459_j62423054680283_1_alg».proof.Proof.Region1
import proofs.«148459_j62423054680283_1_alg».proof.Proof.Region2
import proofs.«148459_j62423054680283_1_alg».proof.Proof.Stretch0
import proofs.«148459_j62423054680283_1_alg».proof.Proof.Stretch1
import proofs.«148459_j62423054680283_1_alg».proof.Proof.Stretch2
import proofs.«148459_j62423054680283_1_alg».proof.Proof.RefSoftmax

set_option maxRecDepth 16384

noncomputable section

open scoped BigOperators

namespace Cert.KernelIdeal.Hand

open Cert.KernelIdeal Cert.KernelIdeal.Gen Cert.ReferenceIdeal.ReadP
open Idealize.ShloMosaic Idealize.ShloMosaic.TcCoe Idealize.SL.Sem Idealize.ShloMosaic.StableHlo

/-! ## The reference's two products are the sums the regions leave -/

theorem lix0_eq (i : S100000x128.Idx) (k : Fin 256) : lidx_main_v4 i k = lix0 i k :=
  funext fun a => by match a with | ⟨0, _⟩ => rfl | ⟨1, _⟩ => rfl
theorem rix0_eq (i : S100000x128.Idx) (k : Fin 256) : ridx_main_v4 i k = rix0 i k :=
  funext fun a => by match a with | ⟨0, _⟩ => rfl | ⟨1, _⟩ => rfl
theorem lix1_eq (i : S100000x64.Idx) (k : Fin 128) : lidx_main_v49 i k = lix1 i k :=
  funext fun a => by match a with | ⟨0, _⟩ => rfl | ⟨1, _⟩ => rfl
theorem rix1_eq (i : S100000x64.Idx) (k : Fin 128) : ridx_main_v49 i k = rix1 i k :=
  funext fun a => by match a with | ⟨0, _⟩ => rfl | ⟨1, _⟩ => rfl

/-- The reference's first `dot_general` is the whole product, index by index. -/
theorem product0_stage (x0 : (⟨Cert.ReferenceIdeal.S100000x256, .f32⟩ : BufTy).Contents (Elt Ideal)) (x2 : (⟨Cert.ReferenceIdeal.S256x128, .f32⟩ : BufTy).Contents (Elt Ideal)) :
    val_main_v4 (F := Ideal) x0 x2 = mm0 x0 x2 := by
  funext i
  rw [val_main_v4_apply]
  unfold mm0
  simp only [lix0_eq, rix0_eq]

/-- The reference's second `dot_general` is the whole product of the first layer's output and the second weights. -/
theorem product1_stage (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) :
    val_main_v49 (F := Ideal) x0 x1 x2 x3 x4 = mm1 (val_main_v48 (F := Ideal) x0 x1 x2 x3) x4 := by
  funext i
  rw [val_main_v49_apply]
  unfold mm1
  simp only [lix1_eq, rix1_eq]

variable (m : (ℓ : Loc nD τ sig) → Buf (Elt Ideal) ℓ) (ρ : Dev nD → PrngReg)

/-! ## The launch arguments -/
abbrev a0 (c : Dev nD) : (⟨Cert.ReferenceIdeal.S100000x256, .f32⟩ : BufTy).Contents (Elt Ideal) := m ((c : Thread nD τ).loc main_arg0)
abbrev a1 (c : Dev nD) : (⟨Cert.ReferenceIdeal.S2x1600000, .i32⟩ : BufTy).Contents (Elt Ideal) := m ((c : Thread nD τ).loc main_arg1)
abbrev a2 (c : Dev nD) : (⟨Cert.ReferenceIdeal.S256x128, .f32⟩ : BufTy).Contents (Elt Ideal) := m ((c : Thread nD τ).loc main_arg2)
abbrev a3 (c : Dev nD) : (⟨Cert.ReferenceIdeal.S128, .f32⟩ : BufTy).Contents (Elt Ideal) := m ((c : Thread nD τ).loc main_arg3)
abbrev a4 (c : Dev nD) : (⟨Cert.ReferenceIdeal.S128x64, .f32⟩ : BufTy).Contents (Elt Ideal) := m ((c : Thread nD τ).loc main_arg4)
abbrev a5 (c : Dev nD) : (⟨Cert.ReferenceIdeal.S64, .f32⟩ : BufTy).Contents (Elt Ideal) := m ((c : Thread nD τ).loc main_arg5)

/-! ## After the first stretch (the first region's entry) -/
theorem w1_src (c : Dev nD) : W1 m ρ c (Proc.devRef .tc main_v1) = val_main_v1 (F := Ideal) (a1 m c) := stretch0_src (W0 m ρ c)
theorem w1_dst (c : Dev nD) : W1 m ρ c (Proc.devRef .tc main_v3) = val_main_v3 (F := Ideal) (a1 m c) := stretch0_dst (W0 m ρ c)
theorem w1_dinv (c : Dev nD) : W1 m ρ c (Proc.devRef .tc main_v10) = val_main_v11 (F := Ideal) (a1 m c) := stretch0_dinv (W0 m ρ c)
theorem w1_coef (c : Dev nD) : W1 m ρ c (Proc.devRef .tc main_v25) = val_main_v26 (F := Ideal) (a1 m c) := stretch0_coef (W0 m ρ c)
theorem w1_arg0 (c : Dev nD) : W1 m ρ c (Proc.devRef .tc main_arg0) = a0 m c := stretch0_arg0 (W0 m ρ c)
theorem w1_arg2 (c : Dev nD) : W1 m ρ c (Proc.devRef .tc main_arg2) = a2 m c := stretch0_arg2 (W0 m ρ c)
theorem w1_arg3 (c : Dev nD) : W1 m ρ c (Proc.devRef .tc main_arg3) = a3 m c := stretch0_arg3 (W0 m ρ c)
theorem w1_arg4 (c : Dev nD) : W1 m ρ c (Proc.devRef .tc main_arg4) = a4 m c := stretch0_arg4 (W0 m ρ c)
theorem w1_arg5 (c : Dev nD) : W1 m ρ c (Proc.devRef .tc main_arg5) = a5 m c := stretch0_arg5 (W0 m ρ c)

/-! ## After the first region: its result array is the first product; nothing else it does not own moves -/
theorem w2_prod (c : Dev nD) : W2 m ρ c (Proc.devRef .tc main_v26) = val_main_v4 (F := Ideal) (a0 m c) (a2 m c) := by
  refine (W2_arr m ρ c 2).trans ((region0_value (V1 m ρ) c).trans ?_)
  rw [show V1 m ρ c main_arg0 = a0 m c from w1_arg0 m ρ c, show V1 m ρ c main_arg2 = a2 m c from w1_arg2 m ρ c]
  exact (product0_stage _ _).symm
theorem w2_src (c : Dev nD) : W2 m ρ c (Proc.devRef .tc main_v1) = val_main_v1 (F := Ideal) (a1 m c) := (W2_of_ne m ρ c main_v1 (by decide)).trans (w1_src m ρ c)
theorem w2_dst (c : Dev nD) : W2 m ρ c (Proc.devRef .tc main_v3) = val_main_v3 (F := Ideal) (a1 m c) := (W2_of_ne m ρ c main_v3 (by decide)).trans (w1_dst m ρ c)
theorem w2_dinv (c : Dev nD) : W2 m ρ c (Proc.devRef .tc main_v10) = val_main_v11 (F := Ideal) (a1 m c) := (W2_of_ne m ρ c main_v10 (by decide)).trans (w1_dinv m ρ c)
theorem w2_coef (c : Dev nD) : W2 m ρ c (Proc.devRef .tc main_v25) = val_main_v26 (F := Ideal) (a1 m c) := (W2_of_ne m ρ c main_v25 (by decide)).trans (w1_coef m ρ c)
theorem w2_arg3 (c : Dev nD) : W2 m ρ c (Proc.devRef .tc main_arg3) = a3 m c := (W2_of_ne m ρ c main_arg3 (by decide)).trans (w1_arg3 m ρ c)
theorem w2_arg4 (c : Dev nD) : W2 m ρ c (Proc.devRef .tc main_arg4) = a4 m c := (W2_of_ne m ρ c main_arg4 (by decide)).trans (w1_arg4 m ρ c)
theorem w2_arg5 (c : Dev nD) : W2 m ρ c (Proc.devRef .tc main_arg5) = a5 m c := (W2_of_ne m ρ c main_arg5 (by decide)).trans (w1_arg5 m ρ c)

/-! ## After the second stretch (the second region's entry): the first layer's output -/
theorem w4_layer (c : Dev nD) : W4 m ρ c (Proc.devRef .tc main_v48) = val_main_v48 (F := Ideal) (a0 m c) (a1 m c) (a2 m c) (a3 m c) :=
  stretch1_layer (W2 m ρ c) _ _ _ _ (w2_prod m ρ c) (w2_src m ρ c) (w2_dst m ρ c) (w2_dinv m ρ c) (w2_coef m ρ c) (w2_arg3 m ρ c)
theorem w4_src (c : Dev nD) : W4 m ρ c (Proc.devRef .tc main_v1) = val_main_v1 (F := Ideal) (a1 m c) := (stretch1_keeps_v1 (W2 m ρ c)).trans (w2_src m ρ c)
theorem w4_dst (c : Dev nD) : W4 m ρ c (Proc.devRef .tc main_v3) = val_main_v3 (F := Ideal) (a1 m c) := (stretch1_keeps_v3 (W2 m ρ c)).trans (w2_dst m ρ c)
theorem w4_dinv (c : Dev nD) : W4 m ρ c (Proc.devRef .tc main_v10) = val_main_v11 (F := Ideal) (a1 m c) := (stretch1_keeps_v10 (W2 m ρ c)).trans (w2_dinv m ρ c)
theorem w4_coef (c : Dev nD) : W4 m ρ c (Proc.devRef .tc main_v25) = val_main_v26 (F := Ideal) (a1 m c) := (stretch1_keeps_v25 (W2 m ρ c)).trans (w2_coef m ρ c)
theorem w4_arg4 (c : Dev nD) : W4 m ρ c (Proc.devRef .tc main_arg4) = a4 m c := (stretch1_keeps_arg4 (W2 m ρ c)).trans (w2_arg4 m ρ c)
theorem w4_arg5 (c : Dev nD) : W4 m ρ c (Proc.devRef .tc main_arg5) = a5 m c := (stretch1_keeps_arg5 (W2 m ρ c)).trans (w2_arg5 m ρ c)

/-! ## After the second region: the second product -/
theorem w5_prod (c : Dev nD) : W5 m ρ c (Proc.devRef .tc main_v49) = val_main_v49 (F := Ideal) (a0 m c) (a1 m c) (a2 m c) (a3 m c) (a4 m c) := by
  refine (W5_arr m ρ c 2).trans ((region1_value (V4 m ρ) c).trans ?_)
  rw [show V4 m ρ c main_v48 = val_main_v48 (F := Ideal) (a0 m c) (a1 m c) (a2 m c) (a3 m c) from w4_layer m ρ c, show V4 m ρ c main_arg4 = a4 m c from w4_arg4 m ρ c]
  exact (product1_stage _ _ _ _ _).symm
theorem w5_src (c : Dev nD) : W5 m ρ c (Proc.devRef .tc main_v1) = val_main_v1 (F := Ideal) (a1 m c) := (W5_of_ne m ρ c main_v1 (by decide)).trans (w4_src m ρ c)
theorem w5_dst (c : Dev nD) : W5 m ρ c (Proc.devRef .tc main_v3) = val_main_v3 (F := Ideal) (a1 m c) := (W5_of_ne m ρ c main_v3 (by decide)).trans (w4_dst m ρ c)
theorem w5_dinv (c : Dev nD) : W5 m ρ c (Proc.devRef .tc main_v10) = val_main_v11 (F := Ideal) (a1 m c) := (W5_of_ne m ρ c main_v10 (by decide)).trans (w4_dinv m ρ c)
theorem w5_coef (c : Dev nD) : W5 m ρ c (Proc.devRef .tc main_v25) = val_main_v26 (F := Ideal) (a1 m c) := (W5_of_ne m ρ c main_v25 (by decide)).trans (w4_coef m ρ c)
theorem w5_arg5 (c : Dev nD) : W5 m ρ c (Proc.devRef .tc main_arg5) = a5 m c := (W5_of_ne m ρ c main_arg5 (by decide)).trans (w4_arg5 m ρ c)

/-! ## After the third stretch (the third region's entry): the second layer's output -/
theorem w6_layer (c : Dev nD) : W6 m ρ c (Proc.devRef .tc main_v70) = val_main_v92 (F := Ideal) (a0 m c) (a1 m c) (a2 m c) (a3 m c) (a4 m c) (a5 m c) :=
  stretch2_layer (W5 m ρ c) _ _ _ _ _ _ (w5_prod m ρ c) (w5_src m ρ c) (w5_dst m ρ c) (w5_dinv m ρ c) (w5_coef m ρ c) (w5_arg5 m ρ c)

/-! ## After the third region: the result -/
theorem w7_result (c : Dev nD) : W7 m ρ c (Proc.devRef .tc main_v71) = val_main_v93 (F := Ideal) (a0 m c) (a1 m c) (a2 m c) (a3 m c) (a4 m c) (a5 m c) := by
  refine (W7_arr m ρ c 1).trans ((region2_value (V6 m ρ) c).trans ?_)
  rw [show V6 m ρ c main_v70 = val_main_v92 (F := Ideal) (a0 m c) (a1 m c) (a2 m c) (a3 m c) (a4 m c) (a5 m c) from w6_layer m ρ c]
  exact (Cert.ReferenceIdeal.Hand.softmax_stage _ _ _ _ _ _).symm

/-- The kernel's program runs, its result array ends at the reference's last stage of the launch arguments, and the
    arguments end as launched. -/
theorem value_run : θ_run defs (onTc (τ := τ) (main (F := Ideal))) ⟨m, fun _ => 0, ρ⟩ (fun r => ∀ c : Dev nD,
      r.2.mem ((c.tc : Thread nD τ).loc main_v71) = val_main_v93 (F := Ideal) (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (w7_result m ρ c), (h c).2⟩) (run_named m ρ)

end Cert.KernelIdeal.Hand

end
-- ==== Proof.RefChunks.lean ====
import proofs.«148459_j62423054680283_1_alg».proof.Proof.RefRun

noncomputable section

namespace Cert.ReferenceIdeal.Hand

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Operations 0 to 33 of the reference's @main, in order. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_cst (constant S_ .f32 0x3F800000#32),
    unary main_cst main_v5 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (addf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)) ]

/-- Operations 34 to 60 of the reference's @main, in order. -/
abbrev opsB : List (HloOp τ sig (Elt F)) :=
  [ nullary main_c_5 (constantI S_ 32 0#32),
    unary main_c_5 main_v27 (broadcastInDim S1600000 ![] bcast_S_S1600000 : (⟨S_, .i32⟩ : BufTy).Contents (Elt F) → (⟨S1600000, .i32⟩ : BufTy).Contents (Elt F)),
    binary main_v1 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v29 (broadcastInDim S1600000 ![] bcast_S_S1600000 : (⟨S_, .i32⟩ : BufTy).Contents (Elt F) → (⟨S1600000, .i32⟩ : BufTy).Contents (Elt F)),
    binary main_v1 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v4 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v26 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v11 main_v11 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x128 ![0, 1] bcast_S100000x1_S100000x128_0_1 : (⟨S100000x1, .f32⟩ : BufTy).Contents (Elt F) → (⟨S100000x128, .f32⟩ : BufTy).Contents (Elt F)),
    binary main_v4 main_v42 main_v43 (mulf : (⟨S100000x128, .f32⟩ : BufTy).Contents (Elt F) → (⟨S100000x128, .f32⟩ : BufTy).Contents (Elt F) → (⟨S100000x128, .f32⟩ : BufTy).Contents (Elt F)),
    binary main_v39 main_v43 main_v44 (addf : (⟨S100000x128, .f32⟩ : BufTy).Contents (Elt F) → (⟨S100000x128, .f32⟩ : BufTy).Contents (Elt F) → (⟨S100000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v47) (TRef.of (T := ⟨S100000x128, .f32⟩) main_call0_v0) (TRef.of (T := ⟨S100000x128, .f32⟩) main_v48) maximumf ]

/-- Operations 61 to 90 of the reference's @main, in order. -/
abbrev opsC : List (HloOp τ sig (Elt F)) :=
  [ binary main_v48 main_arg4 main_v49 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_8 (constant S_ .f32 0x3F800000#32),
    unary main_cst_8 main_v50 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v51 (broadcastInDim S100000 ![] bcast_S_S100000 : (⟨S_, .f32⟩ : BufTy).Contents (Elt F) → (⟨S100000, .f32⟩ : BufTy).Contents (Elt F)),
    unary main_v3 main_v52 (broadcastInDim S1600000x1 ![0] bcast_S1600000_S1600000x1_0 : (⟨S1600000, .i32⟩ : BufTy).Contents (Elt F) → (⟨S1600000x1, .i32⟩ : BufTy).Contents (Elt F)),
    ternary main_v51 main_v52 main_v50 main_v53 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v54 (broadcastInDim S100000 ![] bcast_S_S100000 : (⟨S_, .f32⟩ : BufTy).Contents (Elt F) → (⟨S100000, .f32⟩ : BufTy).Contents (Elt F)),
    binary main_v53 main_v54 main_v55 (addf : (⟨S100000, .f32⟩ : BufTy).Contents (Elt F) → (⟨S100000, .f32⟩ : BufTy).Contents (Elt F) → (⟨S100000, .f32⟩ : BufTy).Contents (Elt F)),
    unary main_v55 main_v56 (Host.rsqrt : (⟨S100000, .f32⟩ : BufTy).Contents (Elt F) → (⟨S100000, .f32⟩ : BufTy).Contents (Elt F)),
    nullary main_c_11 (constantI S_ 32 0#32),
    unary main_c_11 main_v57 (broadcastInDim S1600000 ![] bcast_S_S1600000 : (⟨S_, .i32⟩ : BufTy).Contents (Elt F) → (⟨S1600000, .i32⟩ : BufTy).Contents (Elt F)),
    binary main_v1 main_v57 main_v58 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v59 (broadcastInDim S1600000 ![] bcast_S_S1600000 : (⟨S_, .i32⟩ : BufTy).Contents (Elt F) → (⟨S1600000, .i32⟩ : BufTy).Contents (Elt F)),
    binary main_v1 main_v59 main_v60 (addi : (⟨S1600000, .i32⟩ : BufTy).Contents (Elt F) → (⟨S1600000, .i32⟩ : BufTy).Contents (Elt F) → (⟨S1600000, .i32⟩ : BufTy).Contents (Elt F)),
    ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v61 main_v62 (broadcastInDim S1600000x1 ![0] bcast_S1600000_S1600000x1_0 : (⟨S1600000, .i32⟩ : BufTy).Contents (Elt F) → (⟨S1600000x1, .i32⟩ : BufTy).Contents (Elt F)),
    binary main_v56 main_v62 main_v63 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_13 (constantI S_ 32 0#32),
    unary main_c_13 main_v64 (broadcastInDim S1600000 ![] bcast_S_S1600000 : (⟨S_, .i32⟩ : BufTy).Contents (Elt F) → (⟨S1600000, .i32⟩ : BufTy).Contents (Elt F)),
    binary main_v3 main_v64 main_v65 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v66 (broadcastInDim S1600000 ![] bcast_S_S1600000 : (⟨S_, .i32⟩ : BufTy).Contents (Elt F) → (⟨S1600000, .i32⟩ : BufTy).Contents (Elt F)),
    binary main_v3 main_v66 main_v67 (addi : (⟨S1600000, .i32⟩ : BufTy).Contents (Elt F) → (⟨S1600000, .i32⟩ : BufTy).Contents (Elt F) → (⟨S1600000, .i32⟩ : BufTy).Contents (Elt F)),
    ternary main_v65 main_v67 main_v3 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v68 main_v69 (broadcastInDim S1600000x1 ![0] bcast_S1600000_S1600000x1_0 : (⟨S1600000, .i32⟩ : BufTy).Contents (Elt F) → (⟨S1600000x1, .i32⟩ : BufTy).Contents (Elt F)),
    binary main_v56 main_v69 main_v70 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v63 main_v70 main_v71 (mulf : (⟨S1600000, .f32⟩ : BufTy).Contents (Elt F) → (⟨S1600000, .f32⟩ : BufTy).Contents (Elt F) → (⟨S1600000, .f32⟩ : BufTy).Contents (Elt F)) ]

/-- Operations 91 to 114 of the reference's @main, in order. -/
abbrev opsD : List (HloOp τ sig (Elt F)) :=
  [ nullary main_c_15 (constantI S_ 32 0#32),
    unary main_c_15 main_v72 (broadcastInDim S1600000 ![] bcast_S_S1600000 : (⟨S_, .i32⟩ : BufTy).Contents (Elt F) → (⟨S1600000, .i32⟩ : BufTy).Contents (Elt F)),
    binary main_v1 main_v72 main_v73 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v74 (broadcastInDim S1600000 ![] bcast_S_S1600000 : (⟨S_, .i32⟩ : BufTy).Contents (Elt F) → (⟨S1600000, .i32⟩ : BufTy).Contents (Elt F)),
    binary main_v1 main_v74 main_v75 (addi : (⟨S1600000, .i32⟩ : BufTy).Contents (Elt F) → (⟨S1600000, .i32⟩ : BufTy).Contents (Elt F) → (⟨S1600000, .i32⟩ : BufTy).Contents (Elt F)),
    ternary main_v73 main_v75 main_v1 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v76 main_v77 (broadcastInDim S1600000x1 ![0] bcast_S1600000_S1600000x1_0 : (⟨S1600000, .i32⟩ : BufTy).Contents (Elt F) → (⟨S1600000x1, .i32⟩ : BufTy).Contents (Elt F)),
    binary main_v49 main_v77 main_v78 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v71 main_v79 (broadcastInDim S1600000x1 ![0] bcast_S1600000_S1600000x1_0 : (⟨S1600000, .f32⟩ : BufTy).Contents (Elt F) → (⟨S1600000x1, .f32⟩ : BufTy).Contents (Elt F)),
    unary main_v79 main_v80 (broadcastInDim S1600000x64 ![0, 1] bcast_S1600000x1_S1600000x64_0_1 : (⟨S1600000x1, .f32⟩ : BufTy).Contents (Elt F) → (⟨S1600000x64, .f32⟩ : BufTy).Contents (Elt F)),
    binary main_v78 main_v80 main_v81 (mulf : (⟨S1600000x64, .f32⟩ : BufTy).Contents (Elt F) → (⟨S1600000x64, .f32⟩ : BufTy).Contents (Elt F) → (⟨S1600000x64, .f32⟩ : BufTy).Contents (Elt F)),
    nullary main_cst_17 (constant S_ .f32 0x00000000#32),
    unary main_cst_17 main_v82 (broadcastInDim S100000x64 ![] bcast_S_S100000x64 : (⟨S_, .f32⟩ : BufTy).Contents (Elt F) → (⟨S100000x64, .f32⟩ : BufTy).Contents (Elt F)),
    unary main_v3 main_v83 (broadcastInDim S1600000x1 ![0] bcast_S1600000_S1600000x1_0 : (⟨S1600000, .i32⟩ : BufTy).Contents (Elt F) → (⟨S1600000x1, .i32⟩ : BufTy).Contents (Elt F)),
    ternary main_v82 main_v83 main_v81 main_v84 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v56 main_v56 main_v85 (mulf : (⟨S100000, .f32⟩ : BufTy).Contents (Elt F) → (⟨S100000, .f32⟩ : BufTy).Contents (Elt F) → (⟨S100000, .f32⟩ : BufTy).Contents (Elt F)),
    unary main_v85 main_v86 (broadcastInDim S100000x1 ![0] bcast_S100000_S100000x1_0 : (⟨S100000, .f32⟩ : BufTy).Contents (Elt F) → (⟨S100000x1, .f32⟩ : BufTy).Contents (Elt F)),
    unary main_v86 main_v87 (broadcastInDim S100000x64 ![0, 1] bcast_S100000x1_S100000x64_0_1 : (⟨S100000x1, .f32⟩ : BufTy).Contents (Elt F) → (⟨S100000x64, .f32⟩ : BufTy).Contents (Elt F)),
    binary main_v49 main_v87 main_v88 (mulf : (⟨S100000x64, .f32⟩ : BufTy).Contents (Elt F) → (⟨S100000x64, .f32⟩ : BufTy).Contents (Elt F) → (⟨S100000x64, .f32⟩ : BufTy).Contents (Elt F)),
    binary main_v84 main_v88 main_v89 (addf : (⟨S100000x64, .f32⟩ : BufTy).Contents (Elt F) → (⟨S100000x64, .f32⟩ : BufTy).Contents (Elt F) → (⟨S100000x64, .f32⟩ : BufTy).Contents (Elt F)),
    unary main_arg5 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v89 main_v91 main_v92 (addf : (⟨S100000x64, .f32⟩ : BufTy).Contents (Elt F) → (⟨S100000x64, .f32⟩ : BufTy).Contents (Elt F) → (⟨S100000x64, .f32⟩ : BufTy).Contents (Elt F)) ]

/-- Operations 115 to 129 of the reference's @main, in order. -/
abbrev opsE : List (HloOp τ sig (Elt F)) :=
  [ TRef.nullary (TRef.of (T := ⟨S_, .f32⟩) main_call1_cst) (constant S_ .f32 0xFF800000#32),
    TRef.binary (TRef.of (T := ⟨S100000x64, .f32⟩) main_v92) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v92) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v93) subf ]

set_option maxRecDepth 8192 in
/-- The reference's operation list is the five chunks in order. -/
theorem ops_eq_chunks : (ops : List (HloOp τ sig (Elt F))) = opsA ++ (opsB ++ (opsC ++ (opsD ++ opsE))) := rfl

end Cert.ReferenceIdeal.Hand

end
-- ==== Proof.RefValue.lean ====
/- The value of the reference program, stage by stage. The reference's 130 operations are read in five consecutive
   stretches; each stretch's results are the staged values `val_…` of the arguments, given the staged values of the
   buffers it reads, and a buffer a stretch does not write keeps its contents. Composed in order, the result buffer
   after the whole line is `val_main_v93` of the six arguments. -/
import proofs.«148459_j62423054680283_1_alg».proof.Proof.RefRead
import proofs.«148459_j62423054680283_1_alg».proof.Proof.RefChunks
import Idealize.ShloMosaic.Lib.Pipeline.Frame
import Idealize.ShloMosaic.Lib.StableHlo.Run

noncomputable section

namespace Cert.ReferenceIdeal.Hand

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## Operations 0 to 33: the edge rows, the first product, the degree normalisation, the edge coefficient -/

theorem stageA_v1 (W : Valuation τ sig (Elt F)) :
    after (opsA (F := F)) W (Proc.devRef .tc main_v1) = val_main_v1 (F := F) (W (Proc.devRef .tc main_arg1)) := by
  after_results_simp
  simp only [val_main_v1, val_main_v0]
  rfl

theorem stageA_v3 (W : Valuation τ sig (Elt F)) :
    after (opsA (F := F)) W (Proc.devRef .tc main_v3) = val_main_v3 (F := F) (W (Proc.devRef .tc main_arg1)) := by
  after_results_simp
  simp only [val_main_v3, val_main_v2]
  rfl

theorem stageA_v4 (W : Valuation τ sig (Elt F)) :
    after (opsA (F := F)) W (Proc.devRef .tc main_v4)
      = val_main_v4 (F := F) (W (Proc.devRef .tc main_arg0)) (W (Proc.devRef .tc main_arg2)) := by
  after_results_simp
  simp only [val_main_v4]

set_option maxHeartbeats 1000000 in
theorem stageA_v11 (W : Valuation τ sig (Elt F)) :
    after (opsA (F := F)) W (Proc.devRef .tc main_v11) = val_main_v11 (F := F) (W (Proc.devRef .tc main_arg1)) := by
  after_results_simp
  simp only [val_main_v11, val_main_v10, val_main_v9, val_main_cst_1, val_main_v8, val_main_v7, val_main_v6, val_main_cst_0,
    val_main_v5, val_main_cst, val_main_v3, val_main_v2]
  rfl

set_option maxHeartbeats 1000000 in
theorem stageA_v26 (W : Valuation τ sig (Elt F)) :
    after (opsA (F := F)) W (Proc.devRef .tc main_v26) = val_main_v26 (F := F) (W (Proc.devRef .tc main_arg1)) := by
  after_results_simp
  simp only [val_main_v26, val_main_v25, val_main_v24, val_main_v23, val_main_v22, val_main_v21, val_main_c_4, val_main_v20,
    val_main_v19, val_main_c_3, val_main_v18, val_main_v17, val_main_v16, val_main_v15, val_main_v14, val_main_c_2,
    val_main_v13, val_main_v12, val_main_c, val_main_v11, val_main_v10, val_main_v9, val_main_cst_1, val_main_v8,
    val_main_v7, val_main_v6, val_main_cst_0, val_main_v5, val_main_cst, val_main_v3, val_main_v2, val_main_v1, val_main_v0]
  rfl

theorem passA_arg3 (W : Valuation τ sig (Elt F)) :
    after (opsA (F := F)) W (Proc.devRef .tc main_arg3) = W (Proc.devRef .tc main_arg3) := by
  after_results_simp

theorem passA_arg4 (W : Valuation τ sig (Elt F)) :
    after (opsA (F := F)) W (Proc.devRef .tc main_arg4) = W (Proc.devRef .tc main_arg4) := by
  after_results_simp

theorem passA_arg5 (W : Valuation τ sig (Elt F)) :
    after (opsA (F := F)) W (Proc.devRef .tc main_arg5) = W (Proc.devRef .tc main_arg5) := by
  after_results_simp

/-! ## Operations 34 to 60: the first layer's aggregation, bias and rectification -/

set_option maxHeartbeats 1000000 in
theorem stageB_v48 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F))
    (h4 : W (Proc.devRef .tc main_v4) = val_main_v4 (F := F) x0 x2)
    (h1 : W (Proc.devRef .tc main_v1) = val_main_v1 (F := F) x1)
    (h3 : W (Proc.devRef .tc main_v3) = val_main_v3 (F := F) x1)
    (h11 : W (Proc.devRef .tc main_v11) = val_main_v11 (F := F) x1)
    (h26 : W (Proc.devRef .tc main_v26) = val_main_v26 (F := F) x1)
    (ha3 : W (Proc.devRef .tc main_arg3) = x3) :
    after (opsB (F := F)) W (Proc.devRef .tc main_v48) = val_main_v48 (F := F) x0 x1 x2 x3 := by
  after_results_simp
  simp only [h4, h1, h3, h11, h26, ha3]
  simp only [val_main_v48, val_main_call0_v0, val_main_call0_cst, val_main_v47, val_main_v46, val_main_v45, val_main_v44, val_main_v43, val_main_v42, val_main_v41, val_main_v40, val_main_v39, val_main_v38, val_main_v37, val_main_cst_7, val_main_v36, val_main_v35, val_main_v34, val_main_v33, val_main_v32, val_main_v31, val_main_v30, val_main_v29, val_main_c_6, val_main_v28, val_main_v27, val_main_c_5]
  rfl

theorem passB_v1 (W : Valuation τ sig (Elt F)) :
    after (opsB (F := F)) W (Proc.devRef .tc main_v1) = W (Proc.devRef .tc main_v1) := by
  after_results_simp

theorem passB_v3 (W : Valuation τ sig (Elt F)) :
    after (opsB (F := F)) W (Proc.devRef .tc main_v3) = W (Proc.devRef .tc main_v3) := by
  after_results_simp

theorem passB_arg4 (W : Valuation τ sig (Elt F)) :
    after (opsB (F := F)) W (Proc.devRef .tc main_arg4) = W (Proc.devRef .tc main_arg4) := by
  after_results_simp

theorem passB_arg5 (W : Valuation τ sig (Elt F)) :
    after (opsB (F := F)) W (Proc.devRef .tc main_arg5) = W (Proc.devRef .tc main_arg5) := by
  after_results_simp

/-! ## Operations 61 to 90: the second product; the degree normalisation and the edge coefficient once more -/

theorem stageC_v49 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F))
    (h48 : W (Proc.devRef .tc main_v48) = val_main_v48 (F := F) x0 x1 x2 x3)
    (ha4 : W (Proc.devRef .tc main_arg4) = x4) :
    after (opsC (F := F)) W (Proc.devRef .tc main_v49) = val_main_v49 (F := F) x0 x1 x2 x3 x4 := by
  after_results_simp
  simp only [h48, ha4]
  simp only [val_main_v49]

set_option maxHeartbeats 1000000 in
theorem stageC_v56 (W : Valuation τ sig (Elt F)) (x1 : (⟨S2x1600000, .i32⟩ : BufTy).Contents (Elt F))
    (h3 : W (Proc.devRef .tc main_v3) = val_main_v3 (F := F) x1) :
    after (opsC (F := F)) W (Proc.devRef .tc main_v56) = val_main_v56 (F := F) x1 := by
  after_results_simp
  simp only [h3]
  simp only [val_main_v56, val_main_v55, val_main_v54, val_main_cst_10, val_main_v53, val_main_v52, val_main_v51, val_main_cst_9, val_main_v50, val_main_cst_8]

set_option maxHeartbeats 1000000 in
theorem stageC_v71 (W : Valuation τ sig (Elt F)) (x1 : (⟨S2x1600000, .i32⟩ : BufTy).Contents (Elt F))
    (h1 : W (Proc.devRef .tc main_v1) = val_main_v1 (F := F) x1)
    (h3 : W (Proc.devRef .tc main_v3) = val_main_v3 (F := F) x1) :
    after (opsC (F := F)) W (Proc.devRef .tc main_v71) = val_main_v71 (F := F) x1 := by
  after_results_simp
  simp only [h1, h3]
  simp only [val_main_v71, val_main_v70, val_main_v69, val_main_v68, val_main_v67, val_main_v66, val_main_c_14, val_main_v65, val_main_v64, val_main_c_13, val_main_v63, val_main_v62, val_main_v61, val_main_v60, val_main_v59, val_main_c_12, val_main_v58, val_main_v57, val_main_c_11, val_main_v56, val_main_v55, val_main_v54, val_main_cst_10, val_main_v53, val_main_v52, val_main_v51, val_main_cst_9, val_main_v50, val_main_cst_8]

theorem passC_v1 (W : Valuation τ sig (Elt F)) :
    after (opsC (F := F)) W (Proc.devRef .tc main_v1) = W (Proc.devRef .tc main_v1) := by
  after_results_simp

theorem passC_v3 (W : Valuation τ sig (Elt F)) :
    after (opsC (F := F)) W (Proc.devRef .tc main_v3) = W (Proc.devRef .tc main_v3) := by
  after_results_simp

theorem passC_arg5 (W : Valuation τ sig (Elt F)) :
    after (opsC (F := F)) W (Proc.devRef .tc main_arg5) = W (Proc.devRef .tc main_arg5) := by
  after_results_simp

/-! ## Operations 91 to 114: the second layer's aggregation and bias -/

set_option maxHeartbeats 1000000 in
theorem stageD_v92 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h49 : W (Proc.devRef .tc main_v49) = val_main_v49 (F := F) x0 x1 x2 x3 x4)
    (h56 : W (Proc.devRef .tc main_v56) = val_main_v56 (F := F) x1)
    (h71 : W (Proc.devRef .tc main_v71) = val_main_v71 (F := F) x1)
    (h1 : W (Proc.devRef .tc main_v1) = val_main_v1 (F := F) x1)
    (h3 : W (Proc.devRef .tc main_v3) = val_main_v3 (F := F) x1)
    (ha5 : W (Proc.devRef .tc main_arg5) = x5) :
    after (opsD (F := F)) W (Proc.devRef .tc main_v92) = val_main_v92 (F := F) x0 x1 x2 x3 x4 x5 := by
  after_results_simp
  simp only [h49, h56, h71, h1, h3, ha5]
  simp only [val_main_v92, val_main_v91, val_main_v90, val_main_v89, val_main_v88, val_main_v87, val_main_v86, val_main_v85, val_main_v84, val_main_v83, val_main_v82, val_main_cst_17, val_main_v81, val_main_v80, val_main_v79, val_main_v78, val_main_v77, val_main_v76, val_main_v75, val_main_v74, val_main_c_16, val_main_v73, val_main_v72, val_main_c_15]

/-! ## Operations 115 to 129: the logarithm of the softmax along the last axis -/

/-- Transport along an equation of types and back along its converse is the identity. -/
theorem cast_cast_id {α β : Sort _} (h₁ : α = β) (h₂ : β = α) (v : α) : cast h₂ (cast h₁ v) = v := by
  subst h₁; rfl

/-- Reading the second layer's output at its buffer's own type: the identity. -/
theorem ofBuf_v92 (v : (⟨S100000x64, .f32⟩ : BufTy).Contents (Elt F)) :
    (TRef.of (T := ⟨S100000x64, .f32⟩) main_v92).ofBuf v = v := rfl

/-- Writing the result at its buffer's own type: the identity. -/
theorem toBuf_v93 (v : (⟨S100000x64, .f32⟩ : BufTy).Contents (Elt F)) :
    (TRef.of (T := ⟨S100000x64, .f32⟩) main_v93).toBuf v = v := rfl

set_option maxHeartbeats 1000000 in
theorem stageE_v93 (W : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h92 : W (Proc.devRef .tc main_v92) = val_main_v92 (F := F) x0 x1 x2 x3 x4 x5) :
    after (opsE (F := F)) W (Proc.devRef .tc main_v93) = val_main_v93 (F := F) x0 x1 x2 x3 x4 x5 := by
  after_results_simp
  simp only [h92]
  simp only [cast_cast_id, ofBuf_v92, toBuf_v93]
  simp only [val_main_v93, val_main_call1_v10, val_main_call1_v9, val_main_call1_v8, val_main_call1_v7, val_main_call1_cst_1, val_main_call1_v6, val_main_call1_v5, val_main_call1_v4, val_main_call1_v3, val_main_call1_v2, val_main_call1_v1, val_main_call1_cst_0, val_main_call1_v0, val_main_call1_cst]

/-! ## The whole line -/

/-- The result buffer after the 130 operations, from any contents: the staged value of the six arguments. -/
theorem fold_result (W : Valuation τ sig (Elt F)) :
    after (ops (F := F)) W (Proc.devRef .tc main_v93)
      = val_main_v93 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_eq_chunks]
  simp only [StableHlo.after_append]
  have hA1 := stageA_v1 W
  have hA3 := stageA_v3 W
  have hA4 := stageA_v4 W
  have hA11 := stageA_v11 W
  have hA26 := stageA_v26 W
  have hB48 := stageB_v48 (after opsA W) _ _ _ _ hA4 hA1 hA3 hA11 hA26 (passA_arg3 W)
  have hB1 := (passB_v1 (after opsA W)).trans hA1
  have hB3 := (passB_v3 (after opsA W)).trans hA3
  have hBa4 := (passB_arg4 (after opsA W)).trans (passA_arg4 W)
  have hBa5 := (passB_arg5 (after opsA W)).trans (passA_arg5 W)
  have hC49 := stageC_v49 (after opsB (after opsA W)) _ _ _ _ _ hB48 hBa4
  have hC56 := stageC_v56 (after opsB (after opsA W)) _ hB3
  have hC71 := stageC_v71 (after opsB (after opsA W)) _ hB1 hB3
  have hC1 := (passC_v1 (after opsB (after opsA W))).trans hB1
  have hC3 := (passC_v3 (after opsB (after opsA W))).trans hB3
  have hCa5 := (passC_arg5 (after opsB (after opsA W))).trans hBa5
  have hD92 := stageD_v92 (after opsC (after opsB (after opsA W))) _ _ _ _ _ _ hC49 hC56 hC71 hC1 hC3 hCa5
  exact stageE_v93 (after opsD (after opsC (after opsB (after opsA W)))) _ _ _ _ _ _ hD92

/-- On every device, for any float values, from any memory with zero counters: every weakly fair execution of the
    reference terminates with the result buffer at the staged value of the six arguments' launch contents, the
    arguments unchanged. -/
theorem run_staged (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93) = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (fold_result (launchContents m c)), (h c).2⟩) (ValueP.run m ρ)

end Cert.ReferenceIdeal.Hand

end
-- ==== Proof.lean ====
/-
  A two-layer graph convolution followed by a row-wise log-softmax, as a Pallas program of three kernels, against the same
  network written with jnp on the host. With E the edge list, d the inverse square root of every node's degree (1 + the
  number of edges ending in it) and, per edge, the coefficient d[source] · d[target], a layer sends h to
      scatter_add over the edges of (h[source] · coefficient) into the target's row, + h · d² + bias.
  The network is  log_softmax (layer₂ (relu (layer₁ (x · W₁)) · W₂)).

  The kernel's program computes the two matrix products in row blocks of 5000 (inputs rounded to bf16, accumulated from
  zero in f32: on the extended reals the same sum, entry by entry, as the whole product), leaves the aggregation to the
  host, where it is operation for operation the reference's, computes the degrees and coefficients once where the
  reference computes them twice (the same operations of the edge list, hence the same arrays), and takes the log-softmax
  in row blocks: (a − M) − log Σ exp (a − M) with M the row's maximum, where the reference's library function also takes
  the maximum of M with −∞, which changes nothing. No step uses a law that fails at an infinity: the two sides are the
  same sums, so the precondition is not opened.

  The three programs run (the kernel's two by the generated frame, the reference by its operations' fold); nothing was
  rewritten by the ideal pass; and both idealized programs end with the result array at the reference's last stage of the
  launch arguments, which agree.
-/
import proofs.«148459_j62423054680283_1_alg».proof.Defs
import proofs.«148459_j62423054680283_1_alg».proof.Proof.Gen.Kernel
import proofs.«148459_j62423054680283_1_alg».proof.Proof.Gen.Kernel.Frame
import proofs.«148459_j62423054680283_1_alg».proof.Proof.Gen.KernelIdeal
import proofs.«148459_j62423054680283_1_alg».proof.Proof.Gen.KernelIdeal.Frame
import proofs.«148459_j62423054680283_1_alg».proof.Proof.Gen.ReferenceIdeal
import proofs.«148459_j62423054680283_1_alg».proof.Proof.Gen.Pre_finite_inputs
import proofs.«148459_j62423054680283_1_alg».proof.Proof.KernelValue
import proofs.«148459_j62423054680283_1_alg».proof.Proof.RefValue
import Idealize.ShloMosaic.Adequacy
import Idealize.ShloMosaic.Init

noncomputable section

namespace Cert.Proof

open Idealize.ShloMosaic Idealize.SL.Sem

/-- The kernel's program as printed runs and leaves its arguments. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference is a straight line of host operations: it runs, and no operation writes an argument. -/
theorem frame_reference : Cert.frame_ReferenceIdeal :=
  fun m ρ _ => (θ_run Cert.ReferenceIdeal.defs _ _).mono (fun _ h c => (h c).2) (Cert.ReferenceIdeal.ValueP.run (F := Ideal) m ρ)

/-- Both idealized programs end at the reference's last stage of their arguments, and the arguments agree. -/
theorem algebraic : Cert.algebraic_KernelIdeal_ReferenceIdeal := by
  intro m ρ m' ρ' _ hagree
  refine ⟨fun c => Cert.ReferenceIdeal.ReadP.val_main_v93 (F := Ideal) (Cert.KernelIdeal.Hand.a0 m c) (Cert.KernelIdeal.Hand.a1 m c) (Cert.KernelIdeal.Hand.a2 m c)
      (Cert.KernelIdeal.Hand.a3 m c) (Cert.KernelIdeal.Hand.a4 m c) (Cert.KernelIdeal.Hand.a5 m c), Cert.KernelIdeal.Hand.value_run m ρ, ?_⟩
  refine (θ_run Cert.ReferenceIdeal.defs _ _).mono (fun _ h c => ⟨(h c).1.trans ?_, (h c).2⟩) (Cert.ReferenceIdeal.Hand.run_staged (F := Ideal) m' ρ')
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
